-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x3 : Shape := ⟨3, ![16384, 32, 3]⟩
abbrev S_ : Shape := ⟨0, ![]⟩

class Facts : Prop where
  bcast_S_S16384x32x3 : S_.BroadcastsInDim S16384x32x3 (![] : Fin 0 → Fin S16384x32x3.rank)
  reducesTo_S16384x32x3_S_d0_1_2 : S16384x32x3.ReducesTo [0, 1, 2] S_
  h_S_ : 0 < S_.numel

variable [Facts]

def fn {F : FTy → Type} [FloatOps F] (main_arg0 : FVec F S16384x32x3 .f32) : IVec S_ 1 :=
  let main_v0 : FVec F S16384x32x3 .f32 := Host.absf main_arg0
  let main_cst : FVec F S_ .f32 := constant S_ .f32 0x7F800000#32
  let main_v1 : FVec F S16384x32x3 .f32 := broadcastInDim S16384x32x3 ![] bcast_S_S16384x32x3 main_cst
  let main_v2 : IVec S16384x32x3 1 := cmpf .olt main_v0 main_v1
  let main_c : IVec S_ 1 := constantI S_ 1 1#1
  let main_v3 : IVec S_ 1 := (fun x v => Host.reduce IntOp.andi x v reducesTo_S16384x32x3_S_d0_1_2 h_S_) main_v2 main_c
  main_v3
-- ==== Kernel.lean ====
abbrev S16384x32x3 : Shape := ⟨3, ![16384, 32, 3]⟩
abbrev S16384x32x1 : Shape := ⟨3, ![16384, 32, 1]⟩
abbrev S16384x32 : Shape := ⟨2, ![16384, 32]⟩
abbrev S16384 : Shape := ⟨1, ![16384]⟩
abbrev S512x32 : Shape := ⟨2, ![512, 32]⟩
abbrev S512 : Shape := ⟨1, ![512]⟩
abbrev S512x32x1 : Shape := ⟨3, ![512, 32, 1]⟩
abbrev S512x1x32 : Shape := ⟨3, ![512, 1, 32]⟩
abbrev S512x32x32 : Shape := ⟨3, ![512, 32, 32]⟩
abbrev S32x32 : Shape := ⟨2, ![32, 32]⟩
abbrev S1x32x32 : Shape := ⟨3, ![1, 32, 32]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S16384x32x3, .f32⟩
  | .hbm, ⟨1, _⟩ => ⟨S16384x32x1, .f32⟩
  | .hbm, ⟨2, _⟩ => ⟨S16384x32, .f32⟩
  | .hbm, ⟨3, _⟩ => ⟨S16384x32x1, .f32⟩
  | .hbm, ⟨4, _⟩ => ⟨S16384x32, .f32⟩
  | .hbm, ⟨5, _⟩ => ⟨S16384x32x1, .f32⟩
  | .hbm, ⟨6, _⟩ => ⟨S16384x32, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512, .f32⟩
  | .local _ .vmem, ⟨7, _⟩ => ⟨S512, .f32⟩
  | _, _ => ⟨S16384x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S16384x32x3_S16384x32x1_0_0_0 : S16384x32x3.Slices ![0, 0, 0] S16384x32x1
  shapeCasts_S16384x32x1_S16384x32 : S16384x32x1.ShapeCasts S16384x32
  slices_S16384x32x3_S16384x32x1_0_0_1 : S16384x32x3.Slices ![0, 0, 1] S16384x32x1
  slices_S16384x32x3_S16384x32x1_0_0_2 : S16384x32x3.Slices ![0, 0, 2] S16384x32x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S512x32_S512x32x1 : S512x32.ShapeCasts S512x32x1
  shapeCasts_S512x32_S512x1x32 : S512x32.ShapeCasts S512x1x32
  broadcasts_S512x32x1_S512x32x32 : S512x32x1.Broadcasts S512x32x32
  broadcasts_S512x1x32_S512x32x32 : S512x1x32.Broadcasts S512x32x32
  iota_S32x32_d0_w32 : S32x32.Iotas .tc 32 [0]
  iota_S32x32_d1_w32 : S32x32.Iotas .tc 32 [1]
  natLt_1_32 : 1 < 32
  shapeCasts_S32x32_S1x32x32 : S32x32.ShapeCasts S1x32x32
  broadcasts_S1x32x32_S512x32x32 : S1x32x32.Broadcasts S512x32x32
  reduces_S512x32x32_S512x32 : S512x32x32.Reduces [2] S512x32
  reduces_S512x32_S512 : S512x32.Reduces [1] S512
  inb_S512_S512_0 : ∀ a, (![0] : Fin 1 → Nat) a + S512.size a ≤ S512.size a
  h_S512 : 0 < S512.numel
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S16384x32.size a
  hwx0_0 : ∀ i : grid0.Coords, EltTy.bits .f32 = 32 ∨ (Rect.block (s := S16384x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S16384x32.size a
  hwx0_1 : ∀ i : grid0.Coords, EltTy.bits .f32 = 32 ∨ (Rect.block (s := S16384x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S16384x32.size a
  hwx0_2 : ∀ i : grid0.Coords, EltTy.bits .f32 = 32 ∨ (Rect.block (s := S16384x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16384.size a
  hwx0_3 : ∀ i : grid0.Coords, EltTy.bits .f32 = 32 ∨ (Rect.block (s := S16384) S512.size (cc0_transform_3 i) (hinb0_3 i)).WholeWords (EltTy.packing .f32)

variable [Facts₀]

abbrev win0_0 : Pipeline.Window sig grid0 :=
  Pipeline.Window.ofSpec (Memref.whole main_v1) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x32x3 : Shape := ⟨3, ![16384, 32, 3]⟩
abbrev S16384x32x1x3 : Shape := ⟨4, ![16384, 32, 1, 3]⟩
abbrev S16384x1x32x3 : Shape := ⟨4, ![16384, 1, 32, 3]⟩
abbrev S16384x32x32x3 : Shape := ⟨4, ![16384, 32, 32, 3]⟩
abbrev S_ : Shape := ⟨0, ![]⟩
abbrev S16384x32x32 : Shape := ⟨3, ![16384, 32, 32]⟩
abbrev S32x32 : Shape := ⟨2, ![32, 32]⟩
abbrev S1x32x32 : Shape := ⟨3, ![1, 32, 32]⟩
abbrev S16384 : Shape := ⟨1, ![16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x32x3, .f32⟩
  | .hbm, ⟨1, _⟩ => ⟨S16384x32x1x3, .f32⟩
  | .hbm, ⟨2, _⟩ => ⟨S16384x1x32x3, .f32⟩
  | .hbm, ⟨3, _⟩ => ⟨S16384x32x32x3, .f32⟩
  | .hbm, ⟨4, _⟩ => ⟨S16384x32x32x3, .f32⟩
  | .hbm, ⟨5, _⟩ => ⟨S16384x32x32x3, .f32⟩
  | .hbm, ⟨6, _⟩ => ⟨S16384x32x32x3, .f32⟩
  | .hbm, ⟨7, _⟩ => ⟨S_, .f32⟩
  | .hbm, ⟨8, _⟩ => ⟨S16384x32x32, .f32⟩
  | .hbm, ⟨9, _⟩ => ⟨S_, .f32⟩
  | .hbm, ⟨10, _⟩ => ⟨S16384x32x32, .f32⟩
  | .hbm, ⟨11, _⟩ => ⟨S16384x32x32, .f32⟩
  | .hbm, ⟨12, _⟩ => ⟨S_, .f32⟩
  | .hbm, ⟨13, _⟩ => ⟨S16384x32x32, .f32⟩
  | .hbm, ⟨14, _⟩ => ⟨S16384x32x32, .f32⟩
  | .hbm, ⟨15, _⟩ => ⟨S_, .f32⟩
  | .hbm, ⟨16, _⟩ => ⟨S16384x32x32, .f32⟩
  | .hbm, ⟨17, _⟩ => ⟨S16384x32x32, .f32⟩
  | .hbm, ⟨18, _⟩ => ⟨S_, .f32⟩
  | .hbm, ⟨19, _⟩ => ⟨S16384x32x32, .f32⟩
  | .hbm, ⟨20, _⟩ => ⟨S16384x32x32, .f32⟩
  | .hbm, ⟨21, _⟩ => ⟨S16384x32x32, .f32⟩
  | .hbm, ⟨22, _⟩ => ⟨S32x32, .i32⟩
  | .hbm, ⟨23, _⟩ => ⟨S32x32, .i32⟩
  | .hbm, ⟨24, _⟩ => ⟨S_, .i32⟩
  | .hbm, ⟨25, _⟩ => ⟨S32x32, .i32⟩
  | .hbm, ⟨26, _⟩ => ⟨S32x32, .i32⟩
  | .hbm, ⟨27, _⟩ => ⟨S32x32, .i1⟩
  | .hbm, ⟨28, _⟩ => ⟨S32x32, .f32⟩
  | .hbm, ⟨29, _⟩ => ⟨S_, .f32⟩
  | .hbm, ⟨30, _⟩ => ⟨S32x32, .f32⟩
  | .hbm, ⟨31, _⟩ => ⟨S32x32, .f32⟩
  | .hbm, ⟨32, _⟩ => ⟨S1x32x32, .f32⟩
  | .hbm, ⟨33, _⟩ => ⟨S16384x32x32, .f32⟩
  | .hbm, ⟨34, _⟩ => ⟨S16384x32x32, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16384x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S16384x32x3_S16384x32x1x3_0_1_3 : S16384x32x3.BroadcastsInDim S16384x32x1x3 (![0, 1, 3] : Fin 3 → Fin S16384x32x1x3.rank)
  bcast_S16384x32x3_S16384x1x32x3_0_2_3 : S16384x32x3.BroadcastsInDim S16384x1x32x3 (![0, 2, 3] : Fin 3 → Fin S16384x1x32x3.rank)
  bcast_S16384x32x1x3_S16384x32x32x3_0_1_2_3 : S16384x32x1x3.BroadcastsInDim S16384x32x32x3 (![0, 1, 2, 3] : Fin 4 → Fin S16384x32x32x3.rank)
  bcast_S16384x1x32x3_S16384x32x32x3_0_1_2_3 : S16384x1x32x3.BroadcastsInDim S16384x32x32x3 (![0, 1, 2, 3] : Fin 4 → Fin S16384x32x32x3.rank)
  reducesTo_S16384x32x32x3_S16384x32x32_d3 : S16384x32x32x3.ReducesTo [3] S16384x32x32
  h_S_ : 0 < S_.numel
  bcast_S_S16384x32x32 : S_.BroadcastsInDim S16384x32x32 (![] : Fin 0 → Fin S16384x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S16384x32x32_0_1_2 : S1x32x32.BroadcastsInDim S16384x32x32 (![0, 1, 2] : Fin 3 → Fin S16384x32x32.rank)
  reducesTo_S16384x32x32_S16384_d1_2 : S16384x32x32.ReducesTo [1, 2] S16384
  reducesTo_S16384_S_d0 : S16384.ReducesTo [0] S_

variable [Facts₀]

class Facts : Prop extends Facts₀ where

variable [Facts]
-- ==== Proof.Spec.lean ====
/-
  The separation loss of one batch item, as a function of its 32 joints' coordinates, in the two forms the
  kernel and the reference compute it, and the proof that the two forms agree on real coordinates.

  For joints i, j with coordinates (x, y, z) the kernel takes the squared distance as
  |p_i|² + |p_j|² − 2 ⟨p_i, p_j⟩, the reference as Σ_c (p_ic − p_jc)². On the reals these are one number
  (the binomial expansion); on the extended reals they need not be, so the coordinates are assumed real.
  The hinge penalty max(0, 1/4 − d) + max(0, d − 4) is the same function of the squared distance on both
  sides and is never opened. The off-diagonal mask is the converted bit "i ≠ j" in the kernel and one minus the
  converted bit "i = j" in the reference: the two bits are complementary for every pair below 32.
-/
import Idealize.ShloMosaic.PureOps.Ideal.Laws
import Idealize.ShloMosaic.Lib.ValueIdx
import Idealize.ShloMosaic.Lib.IdealHost

noncomputable section

namespace Cert.SepLoss

open Idealize.ShloMosaic

/-- The hinge penalty of a squared distance d: max 0 (1/4 − d) + max 0 (d − 4), the thresholds and the zero
    kept as the binary words both programs print. -/
def pen (d : EReal) : EReal :=
  max (Ideal.ofBits .f32 0x00000000#32) (Ideal.ofBits .f32 0x3E800000#32 - d)
    + max (Ideal.ofBits .f32 0x00000000#32) (d - Ideal.ofBits .f32 0x40800000#32)

/-- The squared norm of a point. -/
def sqNorm (x y z : EReal) : EReal := x * x + y * y + z * z

/-- The squared distance as the kernel takes it: the two squared norms less twice the inner product. -/
def gramDist (xi yi zi xj yj zj : EReal) : EReal :=
  (sqNorm xi yi zi + sqNorm xj yj zj) - Ideal.ofBits .f32 0x40000000#32 * (xi * xj + yi * yj + zi * zj)

/-- The squared distance as the reference takes it: the sum over the three coordinates of the squared difference,
    from a zero initial value. -/
def diffDist (p q : Fin 3 → EReal) : EReal :=
  Ideal.ofBits .f32 0x00000000#32 + ∑ c : Fin 3, (p c - q c) * (p c - q c)

/-- The word 0x40000000 is the real number two. -/
theorem ofBits_two_f32 : Ideal.ofBits .f32 0x40000000#32 = ((2 : ℝ) : EReal) := by
  simp [Ideal.ofBits, Ideal.ieee, -EReal.coe_mul]; norm_num

/-- On real coordinates the two squared distances are one number: (a − b)² = a² + b² − 2ab, coordinate by
    coordinate. -/
theorem gramDist_eq_diffDist (xi yi zi xj yj zj : ℝ) :
    gramDist (xi : EReal) yi zi xj yj zj = diffDist ![(xi : EReal), yi, zi] ![(xj : EReal), yj, zj] := by
  unfold gramDist diffDist sqNorm
  rw [ofBits_two_f32, Ideal.ofBits_zero_f32, zero_add, Fin.sum_univ_three]
  simp only [Matrix.cons_val_zero, Matrix.cons_val_one, Matrix.cons_val_two, Matrix.head_cons, Matrix.tail_cons]
  simp only [← EReal.coe_mul, ← EReal.coe_add, ← EReal.coe_sub]
  congr 1
  ring

/-- The kernel's off-diagonal mask at (i, j): the bit "row ≠ column" of the two coordinates as 32-bit words,
    read as a number. -/
def offDiagK (i j : Fin 32) : EReal :=
  (((IntOp.cmpi .ne (BitVec.ofNat 32 i.val) (BitVec.ofNat 32 j.val)).toNat : ℝ) : EReal)

/-- The reference's: one less the bit "row + 0 = column", read as a number. -/
def offDiagR (i j : Fin 32) : EReal :=
  Ideal.ofBits .f32 0x3F800000#32
    - (((IntOp.cmpi .eq (IntOp.addi (BitVec.ofNat 32 i.val) 0#32) (BitVec.ofNat 32 j.val)).toNat : ℝ) : EReal)

/-- The two bits are complementary at every pair of joints. -/
theorem bits_complementary : ∀ i j : Fin 32,
    (IntOp.cmpi .ne (BitVec.ofNat 32 i.val) (BitVec.ofNat 32 j.val)).toNat
      + (IntOp.cmpi .eq (IntOp.addi (BitVec.ofNat 32 i.val) 0#32) (BitVec.ofNat 32 j.val)).toNat = 1 := by
  decide +kernel

/-- So the two masks are one number. -/
theorem offDiagK_eq_offDiagR (i j : Fin 32) : offDiagK i j = offDiagR i j := by
  unfold offDiagK offDiagR
  rw [Ideal.ofBits_one_f32]
  have h := bits_complementary i j
  have h' : ((IntOp.cmpi .ne (BitVec.ofNat 32 i.val) (BitVec.ofNat 32 j.val)).toNat : ℝ)
      = 1 - ((IntOp.cmpi .eq (IntOp.addi (BitVec.ofNat 32 i.val) 0#32) (BitVec.ofNat 32 j.val)).toNat : ℝ) := by
    have : (((IntOp.cmpi .ne (BitVec.ofNat 32 i.val) (BitVec.ofNat 32 j.val)).toNat
      + (IntOp.cmpi .eq (IntOp.addi (BitVec.ofNat 32 i.val) 0#32) (BitVec.ofNat 32 j.val)).toNat : ℕ) : ℝ) = 1 := by
      rw [h]; norm_num
    push_cast at this
    linarith
  rw [h', EReal.coe_sub, EReal.coe_one]

/-- One batch item's loss as the kernel sums it: over the second joint inside, over the first outside. -/
def lossK (x y z : Fin 32 → EReal) : EReal :=
  ∑ i : Fin 32, ∑ j : Fin 32, pen (gramDist (x i) (y i) (z i) (x j) (y j) (z j)) * offDiagK i j

/-- And as the reference's terms read, pair by pair. -/
def lossR (p : Fin 32 → Fin 3 → EReal) : EReal :=
  ∑ i : Fin 32, ∑ j : Fin 32, pen (diffDist (p i) (p j)) * offDiagR i j

/-- On real coordinates the two losses are one number. -/
theorem lossK_eq_lossR (p : Fin 32 → Fin 3 → EReal) (hp : ∀ i c, ∃ r : ℝ, p i c = (r : EReal)) :
    lossK (fun i => p i 0) (fun i => p i 1) (fun i => p i 2) = lossR p := by
  unfold lossK lossR
  refine Finset.sum_congr rfl fun i _ => Finset.sum_congr rfl fun j _ => ?_
  obtain ⟨xi, hxi⟩ := hp i 0
  obtain ⟨yi, hyi⟩ := hp i 1
  obtain ⟨zi, hzi⟩ := hp i 2
  obtain ⟨xj, hxj⟩ := hp j 0
  obtain ⟨yj, hyj⟩ := hp j 1
  obtain ⟨zj, hzj⟩ := hp j 2
  have hpi : p i = ![(xi : EReal), yi, zi] := funext fun c => by
    match c with
    | ⟨0, _⟩ => exact hxi
    | ⟨1, _⟩ => exact hyi
    | ⟨2, _⟩ => exact hzi
  have hpj : p j = ![(xj : EReal), yj, zj] := funext fun c => by
    match c with
    | ⟨0, _⟩ => exact hxj
    | ⟨1, _⟩ => exact hyj
    | ⟨2, _⟩ => exact hzj
  dsimp only
  rw [hxi, hyi, hzi, hxj, hyj, hzj, gramDist_eq_diffDist, offDiagK_eq_offDiagR, hpi, hpj]

/-! ## The per-item losses of a whole [16384, 32, 3] array of joints -/

/-- Item p's loss in the kernel's form: its joints' three coordinates are the array's last axis. -/
def rowLossK (a : (⟨3, ![16384, 32, 3]⟩ : Shape).Idx → EReal) (p : Fin 16384) : EReal :=
  lossK (fun i => a (ValueIdx.ix3 p i (0 : Fin 3))) (fun i => a (ValueIdx.ix3 p i (1 : Fin 3)))
    (fun i => a (ValueIdx.ix3 p i (2 : Fin 3)))

/-- Item p's loss in the reference's form. -/
def rowLossR (a : (⟨3, ![16384, 32, 3]⟩ : Shape).Idx → EReal) (p : Fin 16384) : EReal :=
  lossR (fun i c => a (ValueIdx.ix3 p i c))

/-- The vector of the items' losses, kernel's form. -/
def perBatchK (a : (⟨3, ![16384, 32, 3]⟩ : Shape).Idx → EReal) : (⟨1, ![16384]⟩ : Shape).Idx → EReal :=
  fun b => rowLossK a (b 0)

/-- The vector of the items' losses, reference's form. -/
def perBatchR (a : (⟨3, ![16384, 32, 3]⟩ : Shape).Idx → EReal) : (⟨1, ![16384]⟩ : Shape).Idx → EReal :=
  fun b => rowLossR a (b 0)

/-- On an array of real numbers the two vectors are one. -/
theorem perBatchK_eq_perBatchR (a : (⟨3, ![16384, 32, 3]⟩ : Shape).Idx → EReal) (ha : ∀ i, ∃ r : ℝ, a i = (r : EReal)) :
    perBatchK a = perBatchR a :=
  funext fun b => lossK_eq_lossR (fun i c => a (ValueIdx.ix3 (b 0) i c)) fun i c => ha _

/-- What both programs do with the vector of losses, on the host: the sum over the 16384 items from zero, divided
    by 16384 (the mean), raised to the power 0.4. The same three operations on both sides, so never opened. -/
def finish (v : FVec Ideal ⟨1, ![16384]⟩ .f32) : FVec Ideal ⟨0, ![]⟩ .f32 :=
  Host.powf
    (Host.divf
      (Host.reduceAdd v (constant (F := Ideal) ⟨0, ![]⟩ .f32 0x00000000#32)
        (by decide : (⟨1, ![16384]⟩ : Shape).ReducesTo [0] ⟨0, ![]⟩) (by decide : 0 < (⟨0, ![]⟩ : Shape).numel))
      (constant (F := Ideal) ⟨0, ![]⟩ .f32 0x46800000#32))
    (constant (F := Ideal) ⟨0, ![]⟩ .f32 0x3ECCCCCD#32)

end Cert.SepLoss

end
-- ==== Proof.LibRank3.lean ====
/-
  General reading lemmas for rank-3 arrays with a unit axis, over any extents: a slice along the last axis and the
  trailing unit axis dropped [a, b, 1] → [a, b]; a matrix made a stack of columns
  [a, b] → [a, b, 1] or a stack of rows [a, b] → [a, 1, b]; each of those, and a single matrix [1, b, c], broadcast
  to [a, b, c]; a sum over the last axis of a rank-3 or a rank-2 array read as a sum over that coordinate; and the
  host's sum over the two trailing axes of a rank-3 array read as a double sum from its initial value.
-/
import Idealize.ShloMosaic.Lib.ValueLayout
import Idealize.ShloMosaic.PureOps.Ideal.Laws

noncomputable section

namespace Cert.LibRank3

open Idealize.ShloMosaic Idealize.ShloMosaic.ValueIdx

variable {α : Type}

/-- An [a, b] array cast to [a, b, 1] reads, at (p, q, u), the operand at (p, q), whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array cast to [a, 1, b] reads, at (p, u, q), the operand at (p, q), whatever the unit coordinate. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a, b, 1] array cast to [a, b] reads, at (p, q), the operand at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- A rank-3 array cut along its last axis from o reads, at (p, q, j), the source at (p, q, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An [a, b, 1] array broadcast to [a, b, c] reads, at (p, q, k), the operand's one entry at (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array broadcast to [a, b, c] reads, at (p, q, k), the operand's one entry at (p, k). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A [1, b, c] array broadcast to [a, b, c] reads, at (p, q, k), the operand's one matrix at (q, k). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A float sum over the last axis of an [a, b, c] array, read at (p, q): the sum over k of the source at (p, q, k). -/
theorem multiReduction_add_abc_ab_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- A float sum over the last axis of an [a, b] array, read at p: the sum over q of the source at (p, q). -/
theorem multiReduction_add_ab_a_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) :=
  (Ideal.multiReduction_add_single src acc h hφ hacc (ix1 p)).trans
    (Finset.sum_congr rfl fun q _ => congrArg src (funext fun ax => Fin.ext (by
      match ax with
      | ⟨0, _⟩ => rfl
      | ⟨1, _⟩ => rfl)))

/-- The host's sum of an [a, b, c] array over its two trailing axes, read at p: the initial value plus the double
    sum over (q, k) of the source at (p, q, k). The indices that drop to p are exactly the (p, q, k). -/
theorem hostReduceAdd_abc_a_apply {a b c : ℕ} (h' : (⟨3, ![a, b, c]⟩ : Shape).ReducesTo [1, 2] ⟨1, ![a]⟩)
    (x : (⟨3, ![a, b, c]⟩ : Shape).Idx → EReal) (init : EReal) (p : Fin a) :
    Ideal.hostReduceAdd h' x init (ix1 p) = init + ∑ q : Fin b, ∑ k : Fin c, x (ix3 p q k) := by
  unfold Ideal.hostReduceAdd
  refine congrArg (init + ·) ?_
  rw [← Finset.sum_product' (Finset.univ : Finset (Fin b)) (Finset.univ : Finset (Fin c)) (fun q k => x (ix3 p q k))]
  refine Finset.sum_nbij' (fun i => ((i 1 : Fin b), (i 2 : Fin c))) (fun qk => ix3 p qk.1 qk.2) ?_ ?_ ?_ ?_ ?_
  · intro i _; exact Finset.mem_product.2 ⟨Finset.mem_univ _, Finset.mem_univ _⟩
  · intro qk _
    refine Finset.mem_filter.2 ⟨Finset.mem_univ _, funext fun ax => Fin.ext ?_⟩
    match ax with
    | ⟨0, _⟩ => rfl
  · intro i hi
    have hd := (Finset.mem_filter.1 hi).2
    have h0 : (i 0).val = p.val := congrArg (fun j : (⟨1, ![a]⟩ : Shape).Idx => (j 0).val) hd
    funext ax
    apply Fin.ext
    match ax with
    | ⟨0, _⟩ => exact h0.symm
    | ⟨1, _⟩ => rfl
    | ⟨2, _⟩ => rfl
  · intro qk _; rfl
  · intro i hi
    have hd := (Finset.mem_filter.1 hi).2
    have h0 : (i 0).val = p.val := congrArg (fun j : (⟨1, ![a]⟩ : Shape).Idx => (j 0).val) hd
    refine congrArg x (funext fun ax => Fin.ext ?_)
    match ax with
    | ⟨0, _⟩ => exact h0
    | ⟨1, _⟩ => rfl
    | ⟨2, _⟩ => rfl

end Cert.LibRank3

end
-- ==== Proof.KernelBody.lean ====
/-
  The kernel body's arithmetic, read at an index: what one grid point stores for row r of its block is the
  separation loss of that row's 32 joints, in the kernel's form (Spec.lean's lossK), of the three coordinate blocks
  the point loaded.

  The pairwise penalty array at (r, i, j) is the hinge penalty of the kernel's squared distance between joints i
  and j of row r: the column and row broadcasts of each coordinate block read it at (r, i) and at (r, j). The mask
  at (i, j) is the bit "i ≠ j" of the two iotas. The two lane sums are the sums over j, then over i.
-/
import proofs.«107575_j80307298501466_1_alg».proof.Proof.Gen.KernelIdeal.Skeleton
import proofs.«107575_j80307298501466_1_alg».proof.Proof.Spec
import proofs.«107575_j80307298501466_1_alg».proof.Proof.LibRank3
import Idealize.ShloMosaic.Lib.KernelVsHost

noncomputable section

namespace Cert.KernelIdeal.Body

open Idealize.ShloMosaic Idealize.ShloMosaic.ValueIdx Cert.KernelIdeal Cert.KernelIdeal.Gen Cert.SepLoss Cert.LibRank3

/-- The pairwise penalty array at (r, i, j): the penalty of the squared distance between joints i and j of row r,
    the distance taken from the squared norms and the inner product. -/
theorem pay2_apply (X Y Z : FVec Ideal S512x32 .f32) (r : Fin 512) (i j : Fin 32) :
    k0_pay2 (F := Ideal) X Y Z (ix3 r i j)
      = pen (gramDist (X (ix2 r i)) (Y (ix2 r i)) (Z (ix2 r i)) (X (ix2 r j)) (Y (ix2 r j)) (Z (ix2 r j))) := by
  unfold k0_pay2 pen gramDist sqNorm
  simp only [shapeCast_self, addf_apply, subf_apply, mulf_apply, maximumf_apply, broadcast_apply,
    broadcastTo_ab1_abc_apply, broadcastTo_a1c_abc_apply, shapeCast_ab_ab1_apply, shapeCast_ab_a1b_apply]
  rfl

/-- The mask bit at (i, j): whether the row number differs from the column number, as 32-bit words. -/
theorem pay3_apply (i j : Fin 32) :
    k0_pay3 (ix2 i j) = IntOp.cmpi .ne (BitVec.ofNat 32 i.val) (BitVec.ofNat 32 j.val) := by
  unfold k0_pay3
  show IntOp.cmpi .ne (iota .tc S32x32 32 [0] iota_S32x32_d0_w32 (ix2 i j)) (iota .tc S32x32 32 [1] iota_S32x32_d1_w32 (ix2 i j)) = _
  rw [iota_single_apply, iota_single_apply]

/-- The stored vector at row r: the sum over the first joint of the sum over the second of the penalty array times
    the mask bit read as a number. -/
theorem pay1_apply (V : FVec Ideal S512x32x32 .f32) (M : IVec S32x32 1) (r : Fin 512) :
    k0_pay1 (F := Ideal) V M (ix1 r)
      = ∑ i : Fin 32, ∑ j : Fin 32, V (ix3 r i j) * ((((M (ix2 i j)).toNat : ℝ)) : EReal) := by
  unfold k0_pay1
  dsimp only
  refine (multiReduction_add_ab_a_apply _ _ _ _ _ r).trans (Finset.sum_congr rfl fun i _ => ?_)
  refine (multiReduction_add_abc_ab_apply _ _ _ _ _ r i).trans (Finset.sum_congr rfl fun j _ => ?_)
  rw [mulf_apply, broadcastTo_1bc_abc_apply, shapeCast_ab_1ab_apply, sitofp_extui_eq_uitofp]
  rfl

/-- What a grid point stores at row r: the kernel's form of the loss of that row's joints. -/
theorem stored_apply (X Y Z : FVec Ideal S512x32 .f32) (r : Fin 512) :
    k0_pay1 (F := Ideal) (k0_pay2 (F := Ideal) X Y Z) k0_pay3 (ix1 r)
      = lossK (fun i => X (ix2 r i)) (fun i => Y (ix2 r i)) (fun i => Z (ix2 r i)) := by
  rw [pay1_apply]
  unfold lossK offDiagK
  refine Finset.sum_congr rfl fun i _ => Finset.sum_congr rfl fun j _ => ?_
  rw [pay2_apply, pay3_apply]

end Cert.KernelIdeal.Body

end
-- ==== Proof.KernelValue.lean ====
/-
  The kernel program's result as a function of its argument: the vector of per-item losses (Spec.lean's perBatchK
  of the argument array) finished on the host (the mean, then the power 0.4).

  The three host slices and reshapes before the call hand the kernel the x, y and z coordinate planes
  [16384, 32] of the argument. Grid point t loads rows 512 t … 512 t + 511 of each plane and stores, for row r of its
  block, the loss of item 512 t + r; the 32 blocks tile the 16384 items, so after the call the result array is
  perBatchK of the argument. The three host operations after the call are Spec.lean's finish.
-/
import proofs.«107575_j80307298501466_1_alg».proof.Proof.Gen.KernelIdeal.Frame
import proofs.«107575_j80307298501466_1_alg».proof.Proof.KernelBody
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.SepLoss Cert.LibRank3

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The argument array on core c. -/
abbrev arg (c : Dev nD) : S16384x32x3.Idx → EReal := m ((c : Thread nD τ).loc main_arg0)

/-! ## The coordinate planes the host hands the kernel -/

theorem V_main_v1 (c : Dev nD) : (V m c main_v1 : S16384x32.Idx → EReal)
    = shapeCast S16384x32 (extractStridedSlice S16384x32x1 ![0, 0, 0] (arg m c) slices_S16384x32x3_S16384x32x1_0_0_0) shapeCasts_S16384x32x1_S16384x32 := by
  show StableHlo.after hostOps0 (fun b => m (c, b)) (Proc.devRef .tc main_v1) = _
  after_results
  rfl

theorem V_main_v3 (c : Dev nD) : (V m c main_v3 : S16384x32.Idx → EReal)
    = shapeCast S16384x32 (extractStridedSlice S16384x32x1 ![0, 0, 1] (arg m c) slices_S16384x32x3_S16384x32x1_0_0_1) shapeCasts_S16384x32x1_S16384x32 := by
  show StableHlo.after hostOps0 (fun b => m (c, b)) (Proc.devRef .tc main_v3) = _
  after_results
  rfl

theorem V_main_v5 (c : Dev nD) : (V m c main_v5 : S16384x32.Idx → EReal)
    = shapeCast S16384x32 (extractStridedSlice S16384x32x1 ![0, 0, 2] (arg m c) slices_S16384x32x3_S16384x32x1_0_0_2) shapeCasts_S16384x32x1_S16384x32 := by
  show StableHlo.after hostOps0 (fun b => m (c, b)) (Proc.devRef .tc main_v5) = _
  after_results
  rfl

/-- The x plane at (p, q) is the argument at (p, q, 0). -/
theorem V_main_v1_apply (c : Dev nD) (p : Fin 16384) (q : Fin 32) :
    (V m c main_v1 : S16384x32.Idx → EReal) (ix2 p q) = arg m c (ix3 p q (0 : Fin 3)) := by
  rw [V_main_v1, shapeCast_ab1_ab_apply, slice3_axis2_apply 0 _ _ p q (0 : Fin 1) (0 : Fin 3) rfl]

/-- The y plane at (p, q) is the argument at (p, q, 1). -/
theorem V_main_v3_apply (c : Dev nD) (p : Fin 16384) (q : Fin 32) :
    (V m c main_v3 : S16384x32.Idx → EReal) (ix2 p q) = arg m c (ix3 p q (1 : Fin 3)) := by
  rw [V_main_v3, shapeCast_ab1_ab_apply, slice3_axis2_apply 1 _ _ p q (0 : Fin 1) (1 : Fin 3) rfl]

/-- The z plane at (p, q) is the argument at (p, q, 2). -/
theorem V_main_v5_apply (c : Dev nD) (p : Fin 16384) (q : Fin 32) :
    (V m c main_v5 : S16384x32.Idx → EReal) (ix2 p q) = arg m c (ix3 p q (2 : Fin 3)) := by
  rw [V_main_v5, shapeCast_ab1_ab_apply, slice3_axis2_apply 2 _ _ p q (0 : Fin 1) (2 : Fin 3) rfl]

/-! ## The blocks a grid point loads -/

/-- The printed index maps, decided over the grid: on the item axis every window's block index is the grid point,
    and on the joint axis the inputs' is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

/-- Row r of point t's x block is the x coordinates of item 512 t + r. -/
theorem iblk0_apply (c : Dev nD) (t : Fin cfg0.N) (r : Fin 512) (i : Fin 32) (p : Fin 16384)
    (hp : p.val = 512 * t.val + r.val) :
    (iblk m c 0 t : Vec Ideal S512x32 .f32) (ix2 r i) = arg m c (ix3 p i (0 : Fin 3)) := by
  obtain ⟨e0, e1, -⟩ := idx_facts t
  unfold iblk
  rw [View.read_apply]
  show (V m c main_v1 : S16384x32.Idx → EReal) _ = _
  refine (congrArg (V m c main_v1 : S16384x32.Idx → EReal) ?_).trans (V_main_v1_apply m c p i)
  funext a
  apply Fin.ext
  match a with
  | ⟨0, _⟩ => show win0_0.index t (0 : Fin 2) * 512 + 1 * r.val = p.val; rw [e0, hp]; omega
  | ⟨1, _⟩ => show win0_0.index t (1 : Fin 2) * 32 + 1 * i.val = i.val; rw [e1]; omega

/-- Row r of point t's y block is the y coordinates of item 512 t + r. -/
theorem iblk1_apply (c : Dev nD) (t : Fin cfg0.N) (r : Fin 512) (i : Fin 32) (p : Fin 16384)
    (hp : p.val = 512 * t.val + r.val) :
    (iblk m c 1 t : Vec Ideal S512x32 .f32) (ix2 r i) = arg m c (ix3 p i (1 : Fin 3)) := by
  obtain ⟨-, -, e0, e1, -⟩ := idx_facts t
  unfold iblk
  rw [View.read_apply]
  show (V m c main_v3 : S16384x32.Idx → EReal) _ = _
  refine (congrArg (V m c main_v3 : S16384x32.Idx → EReal) ?_).trans (V_main_v3_apply m c p i)
  funext a
  apply Fin.ext
  match a with
  | ⟨0, _⟩ => show win0_1.index t (0 : Fin 2) * 512 + 1 * r.val = p.val; rw [e0, hp]; omega
  | ⟨1, _⟩ => show win0_1.index t (1 : Fin 2) * 32 + 1 * i.val = i.val; rw [e1]; omega

/-- Row r of point t's z block is the z coordinates of item 512 t + r. -/
theorem iblk2_apply (c : Dev nD) (t : Fin cfg0.N) (r : Fin 512) (i : Fin 32) (p : Fin 16384)
    (hp : p.val = 512 * t.val + r.val) :
    (iblk m c 2 t : Vec Ideal S512x32 .f32) (ix2 r i) = arg m c (ix3 p i (2 : Fin 3)) := by
  obtain ⟨-, -, -, -, e0, e1, -⟩ := idx_facts t
  unfold iblk
  rw [View.read_apply]
  show (V m c main_v5 : S16384x32.Idx → EReal) _ = _
  refine (congrArg (V m c main_v5 : S16384x32.Idx → EReal) ?_).trans (V_main_v5_apply m c p i)
  funext a
  apply Fin.ext
  match a with
  | ⟨0, _⟩ => show win0_2.index t (0 : Fin 2) * 512 + 1 * r.val = p.val; rw [e0, hp]; omega
  | ⟨1, _⟩ => show win0_2.index t (1 : Fin 2) * 32 + 1 * i.val = i.val; rw [e1]; omega

/-! ## What a grid point writes back, and the array after the call -/

/-- What point t stores at an entry y of its block is the loss of the item b that entry is: item 512 t + y. -/
theorem stored_eq (c : Dev nD) (t : Fin cfg0.N) (y : S512.Idx) (b : S16384.Idx)
    (hb : (b 0).val = 512 * t.val + (y 0).val) :
    k0_pay1 (F := Ideal) (k0_pay2 (F := Ideal) (iblk m c 0 t) (iblk m c 1 t) (iblk m c 2 t)) k0_pay3 y
      = perBatchK (arg m c) b := by
  obtain ⟨r, rfl⟩ : ∃ r : Fin 512, y = ix1 r := ⟨y 0, eq_ix1 y⟩
  obtain ⟨p, rfl⟩ : ∃ p : Fin 16384, b = ix1 p := ⟨b 0, eq_ix1 b⟩
  have hp : p.val = 512 * t.val + r.val := hb
  refine (Cert.KernelIdeal.Body.stored_apply (iblk m c 0 t) (iblk m c 1 t) (iblk m c 2 t) r).trans ?_
  unfold perBatchK rowLossK
  have h0 : (fun i : Fin 32 => (iblk m c 0 t : Vec Ideal S512x32 .f32) (ix2 r i)) = fun i => arg m c (ix3 p i (0 : Fin 3)) :=
    funext fun i => iblk0_apply m c t r i p hp
  have h1 : (fun i : Fin 32 => (iblk m c 1 t : Vec Ideal S512x32 .f32) (ix2 r i)) = fun i => arg m c (ix3 p i (1 : Fin 3)) :=
    funext fun i => iblk1_apply m c t r i p hp
  have h2 : (fun i : Fin 32 => (iblk m c 2 t : Vec Ideal S512x32 .f32) (ix2 r i)) = fun i => arg m c (ix3 p i (2 : Fin 3)) :=
    funext fun i => iblk2_apply m c t r i p hp
  rw [h0, h1, h2]

/-- What point t writes back is block t of the vector of losses. -/
theorem flushed_eq (c : Dev nD) (t : Fin cfg0.N) :
    (dats m 0 c).flushed 3 t = ((cfg0.win 3).blk t).view.read (Elt Ideal) (perBatchK (arg m c)) := by
  show (cfg0.win 3).cut (grid0.coords t) ((dats m 0 c).after 3 t) = _
  rw [after0_3]
  unfold out0_3
  rw [View.canon_unit_zero hz1]
  simp only [View.ld_unit_zero (S := S512x32) hz2]
  obtain ⟨-, -, -, -, -, -, e3⟩ := idx_facts t
  funext j
  rw [View.read_apply]
  refine stored_eq m c t j _ ?_
  show win0_3.index t (0 : Fin 1) * 512 + 1 * (j 0).val = 512 * t.val + (j 0).val
  rw [e3]; omega

/-- An item is in point t's block iff its number is in the block's range. -/
theorem mem_blk (t : Fin cfg0.N) (i : S16384.Idx) :
    i ∈ ((cfg0.win 3).blk t).view.set ↔ ∀ a : Fin 1, win0_3.index t a * S512.size a ≤ (i a).val ∧ (i a).val < win0_3.index t a * S512.size a + S512.size a := by
  show i ∈ ((View.whole main_v6).slice (win0_3.rect t)).set ↔ _
  rw [View.set_slice_whole, Rect.mem_set_unit]
  exact Iff.rfl

/-- Every item is in the block of the point its number divided by 512 names. -/
theorem cover (i : S16384.Idx) :
    ∃ t : Fin cfg0.N, (cfg0.win 3).flush t = true ∧ i ∈ ((cfg0.win 3).blk t).view.set := by
  have hi : (i 0).val < 16384 := (i 0).isLt
  have hN : cfg0.N = 32 := N_0
  have ht : (i 0).val / 512 < cfg0.N := by rw [hN]; omega
  obtain ⟨-, -, -, -, -, -, e3⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 1) * 512 ≤ (i 0).val ∧ (i 0).val < win0_3.index ⟨(i 0).val / 512, ht⟩ (0 : Fin 1) * 512 + 512
    rw [e3]
    show (i 0).val / 512 * 512 ≤ (i 0).val ∧ (i 0).val < (i 0).val / 512 * 512 + 512
    omega

/-- The result array after the call is the vector of losses, kernel's form. -/
theorem final (c : Dev nD) : (dats m 0 c).arrAt 3 cfg0.N = perBatchK (arg m c) :=
  (dats m 0 c).arrAt_eq_of_cover 3 (perBatchK (arg m c)) (fun t _ => flushed_eq m c t) cover

/-! ## The host operations after the call, and the run -/

/-- The program's result: the losses finished on the host. -/
theorem result_eq (c : Dev nD) :
    Pipeline.afterTail₀ cfgs (dats m) 0 (V0 m) [hostOps1] c main_v9 = finish (perBatchK (arg m c)) := by
  unfold Pipeline.afterTail₀
  show StableHlo.after hostOps1 _ (Proc.devRef .tc main_v9) = _
  after_results
  have hw : (Pipeline.withArrays (cfgs 0).spec c (V0 m c) (fun w => (dats m 0 c).arrAt w (cfgs 0).N)
      (Proc.devRef .tc main_v6) : S16384.Idx → EReal) = perBatchK (arg m c) :=
    (Pipeline.withArrays_arr spec0 launch0.win.arr_inj c _ _ 3).trans (final m c)
  exact congrArg finish hw

/-- The kernel program's run, read: the result at the finished losses of the argument, the argument unchanged. -/
theorem run : θ_run defs (onTc (τ := τ) (main (F := Ideal))) ⟨m, fun _ => 0, ρ⟩ fun r => ∀ c : Dev nD,
      r.2.mem ((c.tc : Thread nD τ).loc main_v9) = finish (perBatchK (m ((c.tc : Thread nD τ).loc main_arg0)))
      ∧ r.2.mem ((c.tc : Thread nD τ).loc main_arg0) = m ((c.tc : Thread nD τ).loc main_arg0) :=
  (θ_run defs _ _).mono (fun _ h c =>
      ⟨((h c).2 main_v9 (Pipeline.mem_restRefs_of main_v9 (by decide) (by decide))).trans (result_eq m c),
        ((h c).2 main_arg0 (Pipeline.mem_restRefs_of main_arg0 (by decide) (by decide))).trans (W_main_arg0 m (dats m) c)⟩)
    (run_main m ρ)

end Cert.KernelIdeal.Hand

end
-- ==== Proof.RefValue.lean ====
/-
  The reference program's result as a function of its argument: the vector of per-item losses in the reference's
  form (Spec.lean's perBatchR of the argument array) finished on the host (the mean, then the power 0.4).

  Read one operation at a time: the two broadcasts of the argument read joint i's and joint j's coordinate c at
  (p, i, j, c), so the sum over c of the squared difference is the reference's squared distance; the two clamped
  differences are the hinge penalty; the identity matrix subtracted from one is the off-diagonal mask; the sum over
  both joint axes is the double sum from zero.
-/
import proofs.«107575_j80307298501466_1_alg».proof.Defs
import proofs.«107575_j80307298501466_1_alg».proof.Proof.Gen.ReferenceIdeal.Run
import proofs.«107575_j80307298501466_1_alg».proof.Proof.Gen.ReferenceIdeal.Read
import proofs.«107575_j80307298501466_1_alg».proof.Proof.Spec
import proofs.«107575_j80307298501466_1_alg».proof.Proof.LibRank3
import Idealize.ShloMosaic.Lib.IdealHost

noncomputable section

open Idealize.ShloMosaic Idealize.ShloMosaic.TcCoe Idealize.SL.Sem

namespace Cert.ReferenceIdeal.Hand

open Cert.ReferenceIdeal Cert.ReferenceIdeal.Gen Cert.ReferenceIdeal.Read Idealize.ShloMosaic.ValueIdx Cert.SepLoss Cert.LibRank3

/-- The reference's squared distance between joints i and j of item p. -/
theorem dist_apply (x0 : (⟨S16384x32x3, .f32⟩ : BufTy).Contents (Elt Ideal)) (p : Fin 16384) (i j : Fin 32) :
    val_main_v6 (F := Ideal) x0 (ix3 p i j) = diffDist (fun c => x0 (ix3 p i c)) (fun c => x0 (ix3 p j c)) := by
  rw [val_main_v6_apply]
  unfold diffDist
  refine congrArg₂ (· + ·) rfl (Finset.sum_congr rfl fun k _ => ?_)
  rw [val_main_v5_apply, val_main_v4_apply, val_main_v2_apply, val_main_v3_apply, val_main_v0_apply, val_main_v1_apply]
  have e1 : idx_main_v0 (idx_main_v2 (idx_main_v6 (ix3 p i j) k)) = ix3 p i k := funext fun a => Fin.ext (by
    match a with
    | ⟨0, _⟩ => rfl
    | ⟨1, _⟩ => rfl
    | ⟨2, _⟩ => rfl)
  have e2 : idx_main_v1 (idx_main_v3 (idx_main_v6 (ix3 p i j) k)) = ix3 p j k := funext fun a => Fin.ext (by
    match a with
    | ⟨0, _⟩ => rfl
    | ⟨1, _⟩ => rfl
    | ⟨2, _⟩ => rfl)
  rw [e1, e2]
  rfl

/-- The reference's penalty array at (p, i, j): the hinge penalty of that squared distance. -/
theorem pen_apply (x0 : (⟨S16384x32x3, .f32⟩ : BufTy).Contents (Elt Ideal)) (p : Fin 16384) (i j : Fin 32) :
    val_main_v15 (F := Ideal) x0 (ix3 p i j) = pen (diffDist (fun c => x0 (ix3 p i c)) (fun c => x0 (ix3 p j c))) := by
  rw [val_main_v15_apply, val_main_v10_apply, val_main_v14_apply, val_main_v8_apply, val_main_v12_apply,
    val_main_v9_apply, val_main_v13_apply, val_main_v7_apply, val_main_v11_apply, dist_apply]
  rfl

/-- The reference's mask at (p, i, j): one less the converted bit "i + 0 = j". -/
theorem mask_apply (p : Fin 16384) (i j : Fin 32) :
    val_main_v25 (F := Ideal) (ix3 p i j) = offDiagR i j := by
  rw [val_main_v25_apply, val_main_v24_apply, val_main_v23_apply, val_main_v22_apply, val_main_v21_apply,
    val_main_v20_apply, val_main_v19_apply, val_main_v16_apply, val_main_v17_apply, val_main_v18_apply]
  rfl

/-- The vector of the items' sums is the vector of losses in the reference's form. -/
theorem perBatch_eq (x0 : (⟨S16384x32x3, .f32⟩ : BufTy).Contents (Elt Ideal)) :
    val_main_v27 (F := Ideal) x0 = perBatchR x0 := by
  funext b
  obtain ⟨p, rfl⟩ : ∃ p : Fin 16384, b = ix1 p := ⟨b 0, eq_ix1 b⟩
  unfold val_main_v27
  rw [hostReduceAdd_apply, hostReduceAdd_abc_a_apply]
  show Ideal.ofBits .f32 0x00000000#32 + _ = _
  rw [Ideal.ofBits_zero_f32, zero_add]
  unfold perBatchR rowLossR lossR
  refine Finset.sum_congr rfl fun i _ => Finset.sum_congr rfl fun j _ => ?_
  rw [val_main_v26_apply, pen_apply, mask_apply]
  rfl

/-- The reference's result: the losses finished on the host. -/
theorem result_eq (x0 : (⟨S16384x32x3, .f32⟩ : BufTy).Contents (Elt Ideal)) :
    val_main_v30 (F := Ideal) x0 = finish (perBatchR x0) := by
  unfold val_main_v30 val_main_v29 val_main_v28
  rw [perBatch_eq]
  rfl

/-- The reference's run, read: the result at the finished losses of the argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = finish (perBatchR (m ((c.tc : Thread nD τ).loc main_arg0)))
      ∧ r.2.mem ((c.tc : Thread nD τ).loc main_arg0) = m ((c.tc : Thread nD τ).loc main_arg0) :=
  (θ_run defs _ _).mono (fun _ h c => ⟨(h c).1.trans ((val_main_v30_eq _).trans (result_eq _)), (h c).2⟩)
    (Cert.ReferenceIdeal.Value.run (F := Ideal) m ρ)

end Cert.ReferenceIdeal.Hand

end
-- ==== Proof.Finite.lean ====
/-
  The precondition read back: if the predicate "every entry's absolute value is below +∞" is all ones of an
  array of extended reals, then every entry is a real number. The predicate is a conjunction (a reduce by and, from
  one) over all entries of the comparison |x| < +∞; an extended real whose absolute value max x (−x) is below the
  top element is neither infinity.
-/
import proofs.«107575_j80307298501466_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Hand

open Idealize.ShloMosaic Cert.Pre_finite_inputs Cert.Pre_finite_inputs.Gen

instance : Subsingleton S_.Idx := ⟨fun a b => funext fun d => d.elim0⟩

/-- The word 0x7F800000 is the top element. -/
theorem ofBits_inf_f32 : Ideal.ofBits .f32 0x7F800000#32 = (⊤ : EReal) := by
  simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the argument array is a real number. -/
theorem real_of_pre (a : FVec Ideal S16384x32x3 .f32) (h : fn (F := Ideal) a = fun _ => 1#1) (i : S16384x32x3.Idx) :
    ∃ r : ℝ, a i = (r : EReal) := by
  have e := congrFun h ValueIdx.ix0
  dsimp only [fn] at e
  have hi := Host.reduce_andi_all _ _ _ _ _ e i
  refine real_of_abs_lt_top (a i) ?_
  have hc : Ideal.cmp .olt (max (a i) (-(a i))) (Ideal.ofBits .f32 0x7F800000#32) = 1#1 := hi
  rw [ofBits_inf_f32] at hc
  unfold Ideal.cmp at hc
  by_contra hn
  simp [hn] at hc

end Cert.Pre_finite_inputs.Hand

end
-- ==== Proof.lean ====
/-
  The separation loss: for each of 16384 items, the sum over ordered pairs of distinct joints (32 joints, three
  coordinates each) of the hinge penalty max(0, 1/4 − d²) + max(0, d² − 4) of their squared distance d²; then the
  mean over the items raised to the power 0.4.

  The kernel takes d² as |p_i|² + |p_j|² − 2 ⟨p_i, p_j⟩ from the three coordinate planes, masks the diagonal with the
  bit "i ≠ j", and sums over j then over i, 512 items per grid point; the reference takes d² as Σ_c (p_ic − p_jc)²,
  masks with one minus the identity matrix, and sums over both joints at once. On real coordinates — which the
  precondition gives: an entry whose absolute value is below +∞ is real — the two squared distances are one
  number (the binomial expansion), the two masks are one number, and a finite sum does not depend on its order;
  so the two vectors of per-item losses are equal, and both programs finish them with the same three host
  operations. The idealization rewrote nothing, so that claim is trivial.

  Spec.lean has the two forms of the loss and their equality; KernelBody.lean and KernelValue.lean read the kernel
  program's result; RefValue.lean the reference's; Finite.lean the precondition.
-/
import proofs.«107575_j80307298501466_1_alg».proof.Defs
import proofs.«107575_j80307298501466_1_alg».proof.Proof.Gen.Kernel
import proofs.«107575_j80307298501466_1_alg».proof.Proof.Gen.Kernel.Skeleton
import proofs.«107575_j80307298501466_1_alg».proof.Proof.Gen.Kernel.Launch
import proofs.«107575_j80307298501466_1_alg».proof.Proof.Gen.Kernel.Points
import proofs.«107575_j80307298501466_1_alg».proof.Proof.Gen.Kernel.Frame
import proofs.«107575_j80307298501466_1_alg».proof.Proof.Gen.KernelIdeal
import proofs.«107575_j80307298501466_1_alg».proof.Proof.Gen.KernelIdeal.Skeleton
import proofs.«107575_j80307298501466_1_alg».proof.Proof.Gen.KernelIdeal.Launch
import proofs.«107575_j80307298501466_1_alg».proof.Proof.Gen.KernelIdeal.Points
import proofs.«107575_j80307298501466_1_alg».proof.Proof.Gen.KernelIdeal.Frame
import proofs.«107575_j80307298501466_1_alg».proof.Proof.Gen.ReferenceIdeal
import proofs.«107575_j80307298501466_1_alg».proof.Proof.Gen.Pre_finite_inputs
import proofs.«107575_j80307298501466_1_alg».proof.Proof.KernelValue
import proofs.«107575_j80307298501466_1_alg».proof.Proof.RefValue
import proofs.«107575_j80307298501466_1_alg».proof.Proof.Finite
import Idealize.ShloMosaic.Adequacy
import Idealize.ShloMosaic.Init

noncomputable section

namespace Cert.Proof

open Idealize.ShloMosaic Idealize.SL.Sem

/-- The kernel program runs and leaves its argument as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, both idealized programs end at the finished vector of per-item losses:
    the kernel's in its own form, the reference's in its own, equal because the argument's entries are real. -/
theorem algebraic : Cert.algebraic_KernelIdeal_ReferenceIdeal := by
  intro m ρ m' ρ' hpre hagree
  refine ⟨fun c => Cert.SepLoss.finish (Cert.SepLoss.perBatchK
      (m ((c.tc : Thread Cert.KernelIdeal.nD Cert.KernelIdeal.τ).loc Cert.KernelIdeal.main_arg0))),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [hagree c]
  exact congrArg Cert.SepLoss.finish
    (Cert.SepLoss.perBatchK_eq_perBatchR _ (Cert.Pre_finite_inputs.Hand.real_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
